-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : IVec S100000 32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 101
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S_, .f32⟩
  | .hbm, ⟨86, _⟩ => ⟨S64x64, .f32⟩
  | .hbm, ⟨87, _⟩ => ⟨S100000x1, .i32⟩
  | .hbm, ⟨88, _⟩ => ⟨S64x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S64, .f32⟩
  | .hbm, ⟨93, _⟩ => ⟨S100000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x64, .f32⟩
  | .hbm, ⟨100, _⟩ => ⟨S64x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S100000, .i32⟩
  | 5 => ⟨S128x128, .f32⟩
  | 6 => ⟨S128, .f32⟩
  | 7 => ⟨S128x64, .f32⟩
  | 8 => ⟨S64, .f32⟩
  | 9 => ⟨S100000, .i32⟩
  | 10 => ⟨S1700000, .i32⟩
  | 11 => ⟨S1700000, .i32⟩
  | 12 => ⟨S_, .f32⟩
  | 13 => ⟨S100000, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000, .i32⟩
  | 71 => ⟨S1700000, .i32⟩
  | 72 => ⟨S1700000, .i32⟩
  | 73 => ⟨S_, .f32⟩
  | 74 => ⟨S100000, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S64x64, .f32⟩
  | 2 => ⟨S100000x1, .i32⟩
  | 3 => ⟨S64x64, .f32⟩
  | 4 => ⟨S_, .f32⟩
  | 5 => ⟨S100000, .f32⟩
  | 6 => ⟨S_, .f32⟩
  | 7 => ⟨S64, .f32⟩
  | 8 => ⟨S100000x1, .i32⟩
  | 9 => ⟨S64, .f32⟩
  | 10 => ⟨S_, .f32⟩
  | 11 => ⟨S64, .f32⟩
  | 12 => ⟨S64, .f32⟩
  | 13 => ⟨S64x1, .f32⟩
  | 14 => ⟨S64x64, .f32⟩
  | 15 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call1_cst : Ref sig .tc := ⟨.hbm, 67, rfl⟩
abbrev main_call1_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v57 : Ref sig .tc := ⟨.hbm, 87, rfl⟩
abbrev main_c_13 : Ref sig .tc := ⟨.hbm, 88, rfl⟩
abbrev main_v58 : Ref sig .tc := ⟨.hbm, 89, rfl⟩
abbrev main_v59 : Ref sig .tc := ⟨.hbm, 90, rfl⟩
abbrev main_c_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Stages.lean ====
/-
  The network this certificate is about, as a composition of whole-array stages on the extended reals.

  A graph of 100000 nodes and 1600000 weighted edges gets one self-loop of weight 1 per node (`withLoops`,
  `withOnes`: 1700000 edges).  The weighted in-degree of a node is the sum of the weights of the edges that end
  in it (`degree`); its inverse square root, taken as 0 where the degree is not positive (`invSqrt`), read at
  both ends of an edge and multiplied with the edge's weight is the edge's normalised weight (`edgeNorm`).
  One propagation step (`propagate128`, `propagate64`) reads a feature row at every edge's source, scales it by
  the edge's normalised weight and adds it into the edge's target row.  A layer is a dense product followed by a
  propagation step and a bias row added to every row, the first layer clamped at zero from below (`layer1`),
  the second not (`layer2`).  The result is the per-state mean of the second layer's rows: the per-state sum
  divided by the per-state count floored at 1 (`poolMean`).  `network` is the whole.

  Negative indices are wrapped once by the number of nodes (`wrapIndex`), as array indexing does; what a gather
  or a scatter does with an index out of range is whatever the host operation does: the stages apply the same
  host operations as both programs, so nothing here depends on it.
-/
import proofs.«153502_j39642548142524_1_alg».proof.Proof.Gen.ReferenceIdeal
import Idealize.ShloMosaic.PureOps.Ideal

noncomputable section

namespace Cert.Stages

open Idealize.ShloMosaic Cert.ReferenceIdeal Cert.ReferenceIdeal.Gen

/-- Float and integer arrays of a shape, at the ideal values. -/
abbrev FA (s : Shape) : Type := FVec Ideal s .f32
abbrev IA (s : Shape) : Type := IVec s 32

/-- The scalars 0 and 1. -/
abbrev zero : FA S_ := constant (F := Ideal) S_ .f32 0x00000000#32
abbrev one : FA S_ := constant (F := Ideal) S_ .f32 0x3F800000#32

/-- An edge-endpoint list followed by the self-loops 0, 1, …, 99999. -/
def withLoops (e : IA S1600000) : IA S1700000 :=
  concatenate S1700000 0 [⟨S1600000, e⟩, ⟨S100000, (iotaInDim S100000 32 0)⟩] concatenates_S1600000_S100000_S1700000_d0

/-- The edge weights followed by the self-loops' weight 1. -/
def withOnes (w : FA S1600000) : FA S1700000 :=
  concatenate S1700000 0 [⟨S1600000, w⟩, ⟨S100000, (broadcastInDim S100000 ![] bcast_S_S100000 one)⟩] concatenates_S1600000_S100000_S1700000_d0

/-- An index list as a one-column index table. -/
def asColumn (s : IA S1700000) : IA S1700000x1 := broadcastInDim S1700000x1 ![0] bcast_S1700000_S1700000x1_0 s

/-- A negative index counted from the end: 100000 is added to it once. -/
def wrapIndex (s : IA S1700000) : IA S1700000 :=
  select (cmpi .slt s (broadcastInDim S1700000 ![] bcast_S_S1700000 (constantI S_ 32 0#32)))
    (addi s (broadcastInDim S1700000 ![] bcast_S_S1700000 (constantI S_ 32 100000#32))) s

/-- The weighted in-degree: the weights summed per target node. -/
def degree (dst : IA S1700000) (w : FA S1700000) : FA S100000 :=
  Host.scatterAdd scatter_S100000_S1700000x1_S1700000_n_0_0_1 (broadcastInDim S100000 ![] bcast_S_S100000 zero) (asColumn dst) w

/-- The inverse square root of a degree, 0 where the degree is not positive. -/
def invSqrt (g : FA S100000) : FA S100000 :=
  select (cmpf .ogt g (broadcastInDim S100000 ![] bcast_S_S100000 zero)) (Host.rsqrt g)
    (broadcastInDim S100000 ![] bcast_S_S100000 (id zero))

/-- An edge's normalised weight: the inverse square roots of its two endpoints' degrees times its weight. -/
def edgeNorm (src dst : IA S1700000) (w : FA S1700000) : FA S1700000 :=
  mulf (mulf (Host.gather gather_S100000_S1700000x1_S1700000_n_0_n_n_0_1_1 (invSqrt (degree dst w)) (asColumn (wrapIndex src))) w)
    (Host.gather gather_S100000_S1700000x1_S1700000_n_0_n_n_0_1_1 (invSqrt (degree dst w)) (asColumn (wrapIndex dst)))

/-- One propagation step on 128 features: each edge carries its source's row, scaled, into its target's row. -/
def propagate128 (h : FA S100000x128) (src dst : IA S1700000) (nrm : FA S1700000) : FA S100000x128 :=
  Host.scatterAdd scatter_S100000x128_S1700000x1_S1700000x128_1_0_0_1 (broadcastInDim S100000x128 ![] bcast_S_S100000x128 zero) (asColumn dst)
    (mulf (Host.gather gather_S100000x128_S1700000x1_S1700000x128_1_0_n_n_0_1_1128 h (asColumn (wrapIndex src)))
      (broadcastInDim S1700000x128 ![0, 1] bcast_S1700000x1_S1700000x128_0_1 (broadcastInDim S1700000x1 ![0] bcast_S1700000_S1700000x1_0 nrm)))

/-- The same step on 64 features. -/
def propagate64 (h : FA S100000x64) (src dst : IA S1700000) (nrm : FA S1700000) : FA S100000x64 :=
  Host.scatterAdd scatter_S100000x64_S1700000x1_S1700000x64_1_0_0_1 (broadcastInDim S100000x64 ![] bcast_S_S100000x64 zero) (asColumn dst)
    (mulf (Host.gather gather_S100000x64_S1700000x1_S1700000x64_1_0_n_n_0_1_164 h (asColumn (wrapIndex src)))
      (broadcastInDim S1700000x64 ![0, 1] bcast_S1700000x1_S1700000x64_0_1 (broadcastInDim S1700000x1 ![0] bcast_S1700000_S1700000x1_0 nrm)))

/-- The two dense products. -/
def dense1 (x : FA S100000x128) (w : FA S128x128) : FA S100000x128 :=
  Host.dotGeneral dot_S100000x128_S128x128_S100000x128_1_0_0_1_n_n none x w
def dense2 (x : FA S100000x128) (w : FA S128x64) : FA S100000x64 :=
  Host.dotGeneral dot_S100000x128_S128x64_S100000x64_1_0_0_1_n_n none x w

/-- A bias vector as a one-row matrix. -/
def asRow128 (b : FA S128) : FA S1x128 := broadcastInDim S1x128 ![1] bcast_S128_S1x128_1 b
def asRow64 (b : FA S64) : FA S1x64 := broadcastInDim S1x64 ![1] bcast_S64_S1x64_1 b

/-- A one-row matrix added to every row, then clamped at zero from below. -/
def addRowClamp (a : FA S100000x128) (r : FA S1x128) : FA S100000x128 :=
  maximumf (addf a (broadcastInDim S100000x128 ![0, 1] bcast_S1x128_S100000x128_0_1 r)) (broadcastInDim S100000x128 ![] bcast_S_S100000x128 zero)

/-- A one-row matrix added to every row. -/
def addRow (a : FA S100000x64) (r : FA S1x64) : FA S100000x64 :=
  addf a (broadcastInDim S100000x64 ![0, 1] bcast_S1x64_S100000x64_0_1 r)

/-- The first layer: product, propagation, bias, clamp. -/
def layer1 (x : FA S100000x128) (w : FA S128x128) (b : FA S128) (src dst : IA S1700000) (nrm : FA S1700000) : FA S100000x128 :=
  addRowClamp (propagate128 (dense1 x w) src dst nrm) (asRow128 b)

/-- The second layer: product, propagation, bias. -/
def layer2 (x : FA S100000x128) (w : FA S128x64) (b : FA S64) (src dst : IA S1700000) (nrm : FA S1700000) : FA S100000x64 :=
  addRow (propagate64 (dense2 x w) src dst nrm) (asRow64 b)

/-- The per-state mean of the rows: per-state sums over per-state counts floored at 1. -/
def poolMean (h : FA S100000x64) (state : IA S100000) : FA S64x64 :=
  Host.divf
    (Host.scatterAdd scatter_S64x64_S100000x1_S100000x64_1_0_0_1 (broadcastInDim S64x64 ![] bcast_S_S64x64 zero)
      (broadcastInDim S100000x1 ![0] bcast_S100000_S100000x1_0 state) h)
    (broadcastInDim S64x64 ![0, 1] bcast_S64x1_S64x64_0_1 (broadcastInDim S64x1 ![0] bcast_S64_S64x1_0
      (maximumf (Host.scatterAdd scatter_S64_S100000x1_S100000_n_0_0_1 (broadcastInDim S64 ![] bcast_S_S64 zero)
          (broadcastInDim S100000x1 ![0] bcast_S100000_S100000x1_0 state) (broadcastInDim S100000 ![] bcast_S_S100000 one))
        (broadcastInDim S64 ![] bcast_S_S64 one))))

/-- The whole network as one function of the nine argument arrays. -/
def network (x : FA S100000x128) (src dst : IA S1600000) (w : FA S1600000) (state : IA S100000)
    (w1 : FA S128x128) (b1 : FA S128) (w2 : FA S128x64) (b2 : FA S64) : FA S64x64 :=
  poolMean
    (layer2
      (layer1 x w1 b1 (withLoops src) (withLoops dst) (edgeNorm (withLoops src) (withLoops dst) (withOnes w)))
      w2 b2 (withLoops src) (withLoops dst) (edgeNorm (withLoops src) (withLoops dst) (withOnes w)))
    state

end Cert.Stages

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibPlainDot.lean ====
/-
  General facts about plain matrix products read as extended reals, independent of any program.
  A contraction whose dimension numbers are the plain ones (left columns against right rows, no batch axis) is,
  entry by entry, the textbook sum  Σ_c A(a,c)·B(c,b):  for the host's product, and for a kernel's product
  accumulated into zero, whatever name the dimension record carries.
-/
import proofs.«153502_j39642548142524_1_alg».proof.Proof.LibPlainMatmul

noncomputable section

namespace Idealize.ShloMosaic.LibPlainDot

open Idealize.ShloMosaic Idealize.ShloMosaic.ValueIdx

/-- The host's plain product of an m×k by a k×n matrix at the entry (a, b): Σ_c A(a,c)·B(c,b). -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) := by
  show FloatOps.dotGeneral (DotDims.plain m k n) prec .single A B (ix2 a b) = _
  -- the host's product is the bare sum over the contraction's index set, which has the one coordinate c
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left factor sits at row a, column c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right factor sits at row c, column b
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The same for a dimension record that is the plain one under another name. -/
theorem dotGeneral_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd; exact dotGeneral_plain_apply prec A B a b

/-- A kernel's product into the zero splat, for a dimension record that is the plain one under another name. -/
theorem matmul_zero_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (⟨2, ![m, n]⟩ : Shape) .f32 0x00000000#32) (ix2 a b)
      = ∑ c : Fin k, A (ix2 a c) * B (ix2 c b) := by
  subst hd; exact LibPlainMatmul.matmul_plain_zero_apply prec A B a b

end Idealize.ShloMosaic.LibPlainDot

end
-- ==== Proof.Region0.lean ====
/-
  The first kernel (a dense product), read as a whole-array function: with its two operand arrays as it finds
  them, the array it leaves is their matrix product.  Each of the ten grid points multiplies 10000 consecutive
  rows of the left operand by the whole right operand, into a zero accumulator, and writes the 10000 result rows;
  a row of a product depends on that row of the left operand only, and the ten blocks tile the 100000 rows.  The
  narrowing of both operands to a 16-bit float format before the product changes nothing on the extended reals.
-/
import proofs.«153502_j39642548142524_1_alg».proof.Proof.Gen.KernelIdeal.Frame
import proofs.«153502_j39642548142524_1_alg».proof.Proof.Stages
import proofs.«153502_j39642548142524_1_alg».proof.Proof.LibPlainDot
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's value at row r, column q of its block: row r of the left block against column q of the right
    operand. -/
theorem pay_apply (x0 : Vec Ideal S10000x128 .f32) (x1 : Vec Ideal S128x128 .f32) (r : Fin 10000) (q : Fin 128) :
    k0_pay1 x0 x1 (ix2 r q) = ∑ k : Fin 128, x0 (ix2 r k) * x1 (ix2 k q) := by
  unfold k0_pay1
  exact LibPlainDot.matmul_zero_apply_of_plain dot_S10000x128_S128x128_S10000x128_1_0_0_1_n_n rfl none
    (truncf .bf16 x0 bitsLt_bf16_f32) (truncf .bf16 x1 bitsLt_bf16_f32) r q

/-- The whole-array product at row p, column q. -/
theorem dense1_apply (x : Stages.FA S100000x128) (w : Stages.FA S128x128) (p : Fin 100000) (q : Fin 128) :
    Stages.dense1 x w (ix2 p q) = ∑ k : Fin 128, x (ix2 p k) * w (ix2 k q) := by
  unfold Stages.dense1
  exact LibPlainDot.dotGeneral_apply_of_plain Cert.ReferenceIdeal.dot_S100000x128_S128x128_S100000x128_1_0_0_1_n_n rfl none x w p q

/-- The printed index maps over the grid: the row blocks move with the point, the right operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Where the row blocks sit in their arrays: row r of point t's block is row t·10000 + r. -/
theorem emb2_eq (t : Fin cfg0.N) (r : Fin 10000) (q : Fin 128) :
    ((cfg0.win 2).blk t).view.emb (ix2 r q)
      = ix2 (⟨t.val * 10000 + r.val, by have ht : t.val < 10 := t.isLt; have := r.isLt; omega⟩ : Fin 100000) q := by
  obtain ⟨e0, e1, e2, e3, e4, e5⟩ := idx_facts t
  funext a; apply Fin.ext
  match a with
  | ⟨0, _⟩ => show win0_2.index t (0 : Fin 2) * 10000 + 1 * r.val = t.val * 10000 + r.val; omega
  | ⟨1, _⟩ => show win0_2.index t (1 : Fin 2) * 128 + 1 * q.val = q.val; omega

theorem emb0_eq (t : Fin cfg0.N) (r : Fin 10000) (q : Fin 128) :
    ((cfg0.win 0).blk t).view.emb (ix2 r q)
      = ix2 (⟨t.val * 10000 + r.val, by have ht : t.val < 10 := t.isLt; have := r.isLt; omega⟩ : Fin 100000) q := by
  obtain ⟨e0, e1, e2, e3, e4, e5⟩ := idx_facts t
  funext a; apply Fin.ext
  match a with
  | ⟨0, _⟩ => show win0_0.index t (0 : Fin 2) * 10000 + 1 * r.val = t.val * 10000 + r.val; omega
  | ⟨1, _⟩ => show win0_0.index t (1 : Fin 2) * 128 + 1 * q.val = q.val; omega

/-- The right operand's one block is the whole array. -/
theorem emb1_eq (t : Fin cfg0.N) (k : Fin 128) (q : Fin 128) :
    ((cfg0.win 1).blk t).view.emb (ix2 k q) = ix2 k q := by
  obtain ⟨e0, e1, e2, e3, e4, e5⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

variable (V : (c : Dev nD) → (b : Ref sig .tc) → Buf (Elt Ideal) ((c : Thread nD τ).loc b))

/-- What point t writes back is block t of the product of the operand arrays. -/
theorem flushed_eq (c : Dev nD) (t : Fin cfg0.N) :
    (dat0 V c).flushed 2 t = ((cfg0.win 2).blk t).view.read (Elt Ideal) (Stages.dense1 (V c main_arg0) (V c main_arg5)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  obtain ⟨r, q, rfl⟩ : ∃ (r : Fin 10000) (q : Fin 128), j = ix2 r q := ⟨j 0, j 1, eq_ix2 j⟩
  show k0_pay1 (iblk0 V c 0 t) (iblk0 V c 1 t) (ix2 r q)
    = Stages.dense1 (V c main_arg0) (V c main_arg5) (((cfg0.win 2).blk t).view.emb (ix2 r q))
  rw [emb2_eq t r q]
  refine (pay_apply (iblk0 V c 0 t) (iblk0 V c 1 t) r q).trans ((dense1_apply _ _ _ q).trans ?_).symm
  refine Finset.sum_congr rfl fun k _ => congrArg₂ (· * ·) ?_ ?_
  · show _ = V c main_arg0 (((cfg0.win 0).blk t).view.emb (ix2 r k))
    rw [emb0_eq t r k]
  · show _ = V c main_arg5 (((cfg0.win 1).blk t).view.emb (ix2 k q))
    rw [emb1_eq t k q]

/-- Every row of the array is in some point's block: row p in that of point p / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 10000, by show (i 0).val / 10000 < 10; omega⟩
  obtain ⟨e0, e1, e2, e3, e4, e5⟩ := idx_facts t
  have e4' : win0_2.index t (0 : Fin 2) = (i 0).val / 10000 := e4
  refine ⟨t, flush0_2 t, ?_⟩
  show i ∈ ((View.whole main_v28).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array the first kernel leaves: the product of its operands. -/
theorem array (c : Dev nD) :
    (dat0 V c).arrAt 2 cfg0.N = Stages.dense1 (V c main_arg0) (V c main_arg5) :=
  (dat0 V c).arrAt_eq_of_cover 2 (Stages.dense1 (V c main_arg0) (V c main_arg5)) (fun t _ => flushed_eq V c t) cover

end Cert.KernelIdeal.Region0

end
-- ==== Proof.Region1.lean ====
/-
  The second kernel (bias add, then clamp at zero from below), read as a whole-array function: with its two operand
  arrays as it finds them, the array it leaves is the first operand with the second's one row added to every row,
  every entry then replaced by zero where it is below zero.  Each of the ten grid points takes 10000 consecutive
  rows, and the ten blocks tile the 100000 rows.
-/
import proofs.«153502_j39642548142524_1_alg».proof.Proof.Gen.KernelIdeal.Frame
import proofs.«153502_j39642548142524_1_alg».proof.Proof.Stages
import Idealize.ShloMosaic.Lib.ValueIdx
import Idealize.ShloMosaic.Lib.ValueLayout
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's value at row r, column q of its block: the larger of zero and the first block's entry plus the row's
    entry at q. -/
theorem pay_apply (x0 : Vec Ideal S10000x128 .f32) (x1 : Vec Ideal S1x128 .f32) (r : Fin 10000) (q : Fin 128) :
    k1_pay1 x0 x1 (ix2 r q) = max (x0 (ix2 r q) + x1 (ix2 (0 : Fin 1) q)) (Ideal.ofBits .f32 0x00000000#32) := by
  unfold k1_pay1
  rw [maximumf_apply, addf_apply, shapeCast_self, shapeCast_self, broadcastTo_1b_ab_apply, broadcast_apply]
  rfl

/-- The whole-array function at row p, column q. -/
theorem addRowClamp_apply (a : Stages.FA S100000x128) (b : Stages.FA S1x128) (p : Fin 100000) (q : Fin 128) :
    Stages.addRowClamp a b (ix2 p q) = max (a (ix2 p q) + b (ix2 (0 : Fin 1) q)) (Ideal.ofBits .f32 0x00000000#32) := by
  unfold Stages.addRowClamp
  rw [maximumf_apply, addf_apply]
  refine congrArg₂ max (congrArg (a (ix2 p q) + ·) ?_) ?_
  · refine broadcastInDim_apply _ _ b (ix2 p q) (ix2 (0 : Fin 1) q) fun ax => ?_
    match ax with
    | ⟨0, _⟩ => rfl
    | ⟨1, _⟩ => rfl
  · exact broadcastInDim_apply _ _ Stages.zero (ix2 p q) ix0 fun ax => ax.elim0

/-- The printed index maps over the grid: the row blocks move with the point, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Where the row blocks sit in their arrays: row r of point t's block is row t·10000 + r. -/
theorem emb2_eq (t : Fin cfg1.N) (r : Fin 10000) (q : Fin 128) :
    ((cfg1.win 2).blk t).view.emb (ix2 r q)
      = ix2 (⟨t.val * 10000 + r.val, by have ht : t.val < 10 := t.isLt; have := r.isLt; omega⟩ : Fin 100000) q := by
  obtain ⟨e0, e1, e2, e3, e4, e5⟩ := idx_facts t
  funext a; apply Fin.ext
  match a with
  | ⟨0, _⟩ => show win1_2.index t (0 : Fin 2) * 10000 + 1 * r.val = t.val * 10000 + r.val; omega
  | ⟨1, _⟩ => show win1_2.index t (1 : Fin 2) * 128 + 1 * q.val = q.val; omega

theorem emb0_eq (t : Fin cfg1.N) (r : Fin 10000) (q : Fin 128) :
    ((cfg1.win 0).blk t).view.emb (ix2 r q)
      = ix2 (⟨t.val * 10000 + r.val, by have ht : t.val < 10 := t.isLt; have := r.isLt; omega⟩ : Fin 100000) q := by
  obtain ⟨e0, e1, e2, e3, e4, e5⟩ := idx_facts t
  funext a; apply Fin.ext
  match a with
  | ⟨0, _⟩ => show win1_0.index t (0 : Fin 2) * 10000 + 1 * r.val = t.val * 10000 + r.val; omega
  | ⟨1, _⟩ => show win1_0.index t (1 : Fin 2) * 128 + 1 * q.val = q.val; omega

/-- The bias row's one block is the whole one-row array. -/
theorem emb1_eq (t : Fin cfg1.N) (q : Fin 128) :
    ((cfg1.win 1).blk t).view.emb (ix2 (0 : Fin 1) q) = ix2 (0 : Fin 1) q := by
  obtain ⟨e0, e1, e2, e3, e4, e5⟩ := idx_facts t
  funext a; apply Fin.ext
  match a with
  | ⟨0, _⟩ => show win1_1.index t (0 : Fin 2) * 1 + 1 * 0 = 0; omega
  | ⟨1, _⟩ => show win1_1.index t (1 : Fin 2) * 128 + 1 * q.val = q.val; omega

variable (V : (c : Dev nD) → (b : Ref sig .tc) → Buf (Elt Ideal) ((c : Thread nD τ).loc b))

/-- What point t writes back is block t of the whole-array function of the operand arrays. -/
theorem flushed_eq (c : Dev nD) (t : Fin cfg1.N) :
    (dat1 V c).flushed 2 t = ((cfg1.win 2).blk t).view.read (Elt Ideal) (Stages.addRowClamp (V c main_v41) (V c main_v42)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  funext j
  obtain ⟨r, q, rfl⟩ : ∃ (r : Fin 10000) (q : Fin 128), j = ix2 r q := ⟨j 0, j 1, eq_ix2 j⟩
  show k1_pay1 (iblk1 V c 0 t) (iblk1 V c 1 t) (ix2 r q)
    = Stages.addRowClamp (V c main_v41) (V c main_v42) (((cfg1.win 2).blk t).view.emb (ix2 r q))
  rw [emb2_eq t r q]
  refine (pay_apply (iblk1 V c 0 t) (iblk1 V c 1 t) r q).trans ((addRowClamp_apply _ _ _ q).trans ?_).symm
  refine congrArg (max · _) (congrArg₂ (· + ·) ?_ ?_)
  · show _ = V c main_v41 (((cfg1.win 0).blk t).view.emb (ix2 r q))
    rw [emb0_eq t r q]
  · show _ = V c main_v42 (((cfg1.win 1).blk t).view.emb (ix2 (0 : Fin 1) q))
    rw [emb1_eq t q]

/-- Every row of the array is in some point's block: row p in that of point p / 10000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 10000, by show (i 0).val / 10000 < 10; omega⟩
  obtain ⟨e0, e1, e2, e3, e4, e5⟩ := idx_facts t
  have e4' : win1_2.index t (0 : Fin 2) = (i 0).val / 10000 := e4
  refine ⟨t, flush1_2 t, ?_⟩
  show i ∈ ((View.whole main_v43).slice (win1_2.rect t)).set
  rw [View.set_slice_whole, Rect.mem_set_unit]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array the second kernel leaves: its first operand with its second's row added to every row, clamped at zero. -/
theorem array (c : Dev nD) :
    (dat1 V c).arrAt 2 cfg1.N = Stages.addRowClamp (V c main_v41) (V c main_v42) :=
  (dat1 V c).arrAt_eq_of_cover 2 (Stages.addRowClamp (V c main_v41) (V c main_v42)) (fun t _ => flushed_eq V c t) cover

end Cert.KernelIdeal.Region1

end
-- ==== Proof.Region2.lean ====
/-
  The third kernel (the second dense product), read as a whole-array function: with its two operand arrays as it
  finds them, the array it leaves is their matrix product, 100000×128 by 128×64.  Each of the ten grid points
  multiplies 10000 consecutive rows of the left operand by the whole right operand into a zero accumulator; the ten
  blocks of result rows tile the array.  The reshape of the left block to its own shape and the narrowing of both
  operands to a 16-bit float format change nothing on the extended reals.
-/
import proofs.«153502_j39642548142524_1_alg».proof.Proof.Gen.KernelIdeal.Frame
import proofs.«153502_j39642548142524_1_alg».proof.Proof.Stages
import proofs.«153502_j39642548142524_1_alg».proof.Proof.LibPlainDot
import Idealize.ShloMosaic.Lib.ValueIdx
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's value at row r, column q of its block: row r of the left block against column q of the right
    operand. -/
theorem pay_apply (x0 : Vec Ideal S10000x128 .f32) (x1 : Vec Ideal S128x64 .f32) (r : Fin 10000) (q : Fin 64) :
    k2_pay1 x0 x1 (ix2 r q) = ∑ k : Fin 128, x0 (ix2 r k) * x1 (ix2 k q) := by
  unfold k2_pay1
  refine (LibPlainDot.matmul_zero_apply_of_plain dot_S10000x128_S128x64_S10000x64_1_0_0_1_n_n rfl none
    (truncf .bf16 (shapeCast S10000x128 x0 shapeCasts_S10000x128_S10000x128) bitsLt_bf16_f32) (truncf .bf16 x1 bitsLt_bf16_f32) r q).trans ?_
  rw [shapeCast_self]
  rfl

/-- The whole-array product at row p, column q. -/
theorem dense2_apply (x : Stages.FA S100000x128) (w : Stages.FA S128x64) (p : Fin 100000) (q : Fin 64) :
    Stages.dense2 x w (ix2 p q) = ∑ k : Fin 128, x (ix2 p k) * w (ix2 k q) := by
  unfold Stages.dense2
  exact LibPlainDot.dotGeneral_apply_of_plain Cert.ReferenceIdeal.dot_S100000x128_S128x64_S100000x64_1_0_0_1_n_n rfl none x w p q

/-- The printed index maps over the grid: the row blocks move with the point, the right operand stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Where the row blocks sit in their arrays: row r of point t's block is row t·10000 + r. -/
theorem emb2_eq (t : Fin cfg2.N) (r : Fin 10000) (q : Fin 64) :
    ((cfg2.win 2).blk t).view.emb (ix2 r q)
      = ix2 (⟨t.val * 10000 + r.val, by have ht : t.val < 10 := t.isLt; have := r.isLt; omega⟩ : Fin 100000) q := by
  obtain ⟨e0, e1, e2, e3, e4, e5⟩ := idx_facts t
  funext a; apply Fin.ext
  match a with
  | ⟨0, _⟩ => show win2_2.index t (0 : Fin 2) * 10000 + 1 * r.val = t.val * 10000 + r.val; omega
  | ⟨1, _⟩ => show win2_2.index t (1 : Fin 2) * 64 + 1 * q.val = q.val; omega

theorem emb0_eq (t : Fin cfg2.N) (r : Fin 10000) (k : Fin 128) :
    ((cfg2.win 0).blk t).view.emb (ix2 r k)
      = ix2 (⟨t.val * 10000 + r.val, by have ht : t.val < 10 := t.isLt; have := r.isLt; omega⟩ : Fin 100000) k := by
  obtain ⟨e0, e1, e2, e3, e4, e5⟩ := idx_facts t
  funext a; apply Fin.ext
  match a with
  | ⟨0, _⟩ => show win2_0.index t (0 : Fin 2) * 10000 + 1 * r.val = t.val * 10000 + r.val; omega
  | ⟨1, _⟩ => show win2_0.index t (1 : Fin 2) * 128 + 1 * k.val = k.val; omega

/-- The right operand's one block is the whole array. -/
theorem emb1_eq (t : Fin cfg2.N) (k : Fin 128) (q : Fin 64) :
    ((cfg2.win 1).blk t).view.emb (ix2 k q) = ix2 k q := by
  obtain ⟨e0, e1, e2, e3, e4, e5⟩ := idx_facts t
  funext a; apply Fin.ext
  match a with
  | ⟨0, _⟩ => show win2_1.index t (0 : Fin 2) * 128 + 1 * k.val = k.val; omega
  | ⟨1, _⟩ => show win2_1.index t (1 : Fin 2) * 64 + 1 * q.val = q.val; omega

variable (V : (c : Dev nD) → (b : Ref sig .tc) → Buf (Elt Ideal) ((c : Thread nD τ).loc b))

/-- What point t writes back is block t of the product of the operand arrays. -/
theorem flushed_eq (c : Dev nD) (t : Fin cfg2.N) :
    (dat2 V c).flushed 2 t = ((cfg2.win 2).blk t).view.read (Elt Ideal) (Stages.dense2 (V c main_v43) (V c main_arg7)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  funext j
  obtain ⟨r, q, rfl⟩ : ∃ (r : Fin 10000) (q : Fin 64), j = ix2 r q := ⟨j 0, j 1, eq_ix2 j⟩
  show k2_pay1 (iblk2 V c 0 t) (iblk2 V c 1 t) (ix2 r q)
    = Stages.dense2 (V c main_v43) (V c main_arg7) (((cfg2.win 2).blk t).view.emb (ix2 r q))
  rw [emb2_eq t r q]
  refine (pay_apply (iblk2 V c 0 t) (iblk2 V c 1 t) r q).trans ((dense2_apply _ _ _ q).trans ?_).symm
  refine Finset.sum_congr rfl fun k _ => congrArg₂ (· * ·) ?_ ?_
  · show _ = V c main_v43 (((cfg2.win 0).blk t).view.emb (ix2 r k))
    rw [emb0_eq t r k]
  · show _ = V c main_arg7 (((cfg2.win 1).blk t).view.emb (ix2 k q))
    rw [emb1_eq t k q]

/-- Every row of the array is in some point's block: row p in that of point p / 10000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 10000, by show (i 0).val / 10000 < 10; omega⟩
  obtain ⟨e0, e1, e2, e3, e4, e5⟩ := idx_facts t
  have e4' : win2_2.index t (0 : Fin 2) = (i 0).val / 10000 := e4
  refine ⟨t, flush2_2 t, ?_⟩
  show i ∈ ((View.whole main_v44).slice (win2_2.rect t)).set
  rw [View.set_slice_whole, Rect.mem_set_unit]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array the third kernel leaves: the product of its operands. -/
theorem array (c : Dev nD) :
    (dat2 V c).arrAt 2 cfg2.N = Stages.dense2 (V c main_v43) (V c main_arg7) :=
  (dat2 V c).arrAt_eq_of_cover 2 (Stages.dense2 (V c main_v43) (V c main_arg7)) (fun t _ => flushed_eq V c t) cover

end Cert.KernelIdeal.Region2

end
-- ==== Proof.Region3.lean ====
/-
  The last kernel (bias add), read as a whole-array function: with its two operand arrays as it finds them, the
  array it leaves is the first operand with the second's one row added to every row.  Each of the ten grid points
  takes 10000 consecutive rows of the first operand, adds the row, and writes the 10000 rows back in place; the ten
  blocks tile the 100000 rows.
-/
import proofs.«153502_j39642548142524_1_alg».proof.Proof.Gen.KernelIdeal.Frame
import proofs.«153502_j39642548142524_1_alg».proof.Proof.Stages
import Idealize.ShloMosaic.Lib.ValueIdx
import Idealize.ShloMosaic.Lib.ValueLayout
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's value at row r, column q of its block: the first block's entry plus the row's entry at q. -/
theorem pay_apply (x0 : Vec Ideal S10000x64 .f32) (x1 : Vec Ideal S1x64 .f32) (r : Fin 10000) (q : Fin 64) :
    k3_pay1 x0 x1 (ix2 r q) = x0 (ix2 r q) + x1 (ix2 (0 : Fin 1) q) := by
  unfold k3_pay1
  rw [addf_apply, shapeCast_self, shapeCast_self, broadcastTo_1b_ab_apply]

/-- The whole-array function at row p, column q. -/
theorem addRow_apply (a : Stages.FA S100000x64) (b : Stages.FA S1x64) (p : Fin 100000) (q : Fin 64) :
    Stages.addRow a b (ix2 p q) = a (ix2 p q) + b (ix2 (0 : Fin 1) q) := by
  unfold Stages.addRow
  rw [addf_apply]
  refine congrArg (a (ix2 p q) + ·) ?_
  refine broadcastInDim_apply _ _ b (ix2 p q) (ix2 (0 : Fin 1) q) fun ax => ?_
  match ax with
  | ⟨0, _⟩ => rfl
  | ⟨1, _⟩ => rfl

/-- The printed index maps over the grid: the row blocks move with the point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Where the row blocks sit in their arrays: row r of point t's block is row t·10000 + r. -/
theorem emb2_eq (t : Fin cfg3.N) (r : Fin 10000) (q : Fin 64) :
    ((cfg3.win 2).blk t).view.emb (ix2 r q)
      = ix2 (⟨t.val * 10000 + r.val, by have ht : t.val < 10 := t.isLt; have := r.isLt; omega⟩ : Fin 100000) q := by
  obtain ⟨e0, e1, e2, e3, e4, e5⟩ := idx_facts t
  funext a; apply Fin.ext
  match a with
  | ⟨0, _⟩ => show win3_2.index t (0 : Fin 2) * 10000 + 1 * r.val = t.val * 10000 + r.val; omega
  | ⟨1, _⟩ => show win3_2.index t (1 : Fin 2) * 64 + 1 * q.val = q.val; omega

theorem emb0_eq (t : Fin cfg3.N) (r : Fin 10000) (q : Fin 64) :
    ((cfg3.win 0).blk t).view.emb (ix2 r q)
      = ix2 (⟨t.val * 10000 + r.val, by have ht : t.val < 10 := t.isLt; have := r.isLt; omega⟩ : Fin 100000) q := by
  obtain ⟨e0, e1, e2, e3, e4, e5⟩ := idx_facts t
  funext a; apply Fin.ext
  match a with
  | ⟨0, _⟩ => show win3_0.index t (0 : Fin 2) * 10000 + 1 * r.val = t.val * 10000 + r.val; omega
  | ⟨1, _⟩ => show win3_0.index t (1 : Fin 2) * 64 + 1 * q.val = q.val; omega

/-- The bias row's one block is the whole one-row array. -/
theorem emb1_eq (t : Fin cfg3.N) (q : Fin 64) :
    ((cfg3.win 1).blk t).view.emb (ix2 (0 : Fin 1) q) = ix2 (0 : Fin 1) q := by
  obtain ⟨e0, e1, e2, e3, e4, e5⟩ := idx_facts t
  funext a; apply Fin.ext
  match a with
  | ⟨0, _⟩ => show win3_1.index t (0 : Fin 2) * 1 + 1 * 0 = 0; omega
  | ⟨1, _⟩ => show win3_1.index t (1 : Fin 2) * 64 + 1 * q.val = q.val; omega

variable (V : (c : Dev nD) → (b : Ref sig .tc) → Buf (Elt Ideal) ((c : Thread nD τ).loc b))

/-- What point t writes back is block t of the whole-array function of the operand arrays. -/
theorem flushed_eq (c : Dev nD) (t : Fin cfg3.N) :
    (dat3 V c).flushed 2 t = ((cfg3.win 2).blk t).view.read (Elt Ideal) (Stages.addRow (V c main_v57) (V c main_v58)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  funext j
  obtain ⟨r, q, rfl⟩ : ∃ (r : Fin 10000) (q : Fin 64), j = ix2 r q := ⟨j 0, j 1, eq_ix2 j⟩
  show k3_pay1 (iblk3 V c 0 t) (iblk3 V c 1 t) (ix2 r q)
    = Stages.addRow (V c main_v57) (V c main_v58) (((cfg3.win 2).blk t).view.emb (ix2 r q))
  rw [emb2_eq t r q]
  refine (pay_apply (iblk3 V c 0 t) (iblk3 V c 1 t) r q).trans ((addRow_apply _ _ _ q).trans ?_).symm
  refine congrArg₂ (· + ·) ?_ ?_
  · show _ = V c main_v57 (((cfg3.win 0).blk t).view.emb (ix2 r q))
    rw [emb0_eq t r q]
  · show _ = V c main_v58 (((cfg3.win 1).blk t).view.emb (ix2 (0 : Fin 1) q))
    rw [emb1_eq t q]

/-- Every row of the array is in some point's block: row p in that of point p / 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by show (i 0).val / 10000 < 10; omega⟩
  obtain ⟨e0, e1, e2, e3, e4, e5⟩ := idx_facts t
  have e4' : win3_2.index t (0 : Fin 2) = (i 0).val / 10000 := e4
  refine ⟨t, flush3_2 t, ?_⟩
  show i ∈ ((View.whole main_v59).slice (win3_2.rect t)).set
  rw [View.set_slice_whole, Rect.mem_set_unit]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array the last kernel leaves: its first operand with its second's row added to every row. -/
theorem array (c : Dev nD) :
    (dat3 V c).arrAt 2 cfg3.N = Stages.addRow (V c main_v57) (V c main_v58) :=
  (dat3 V c).arrAt_eq_of_cover 2 (Stages.addRow (V c main_v57) (V c main_v58)) (fun t _ => flushed_eq V c t) cover

end Cert.KernelIdeal.Region3

end
-- ==== Proof.KernelWhole.lean ====
/-
  The idealized kernel program's result as one function of its nine argument arrays.

  @main is a line of host operations with four kernel launches in it.  Walking its segment boundaries in order: the
  host operations before the first launch build the edge lists with self-loops and the edges' normalised weights;
  the first launch leaves the dense product of the features with the first weight matrix; the host operations after
  it propagate that product along the edges; the second launch adds the first bias row and clamps at zero; the third
  leaves the product with the second weight matrix; the host propagates again; the fourth adds the second bias row;
  the last host operations take per-state means.  Each boundary's contents are read off the one before: a host
  stretch by unfolding its operations, a launch by the whole-array reading of its kernel; the buffers a segment does
  not write (the edge lists, the normalised weights, the arguments still to be used) are carried along unchanged.
-/
import proofs.«153502_j39642548142524_1_alg».proof.Proof.Gen.KernelIdeal.Frame
import proofs.«153502_j39642548142524_1_alg».proof.Proof.Stages
import proofs.«153502_j39642548142524_1_alg».proof.Proof.Region0
import proofs.«153502_j39642548142524_1_alg».proof.Proof.Region1
import proofs.«153502_j39642548142524_1_alg».proof.Proof.Region2
import proofs.«153502_j39642548142524_1_alg».proof.Proof.Region3
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The argument arrays of one core, and what the host builds from the edge lists -/

abbrev aX (c : Dev nD) : Stages.FA S100000x128 := m ((c.tc : Thread nD τ).loc main_arg0)
abbrev aSrc (c : Dev nD) : Stages.IA S1600000 := m ((c.tc : Thread nD τ).loc main_arg1)
abbrev aDst (c : Dev nD) : Stages.IA S1600000 := m ((c.tc : Thread nD τ).loc main_arg2)
abbrev aW (c : Dev nD) : Stages.FA S1600000 := m ((c.tc : Thread nD τ).loc main_arg3)
abbrev aState (c : Dev nD) : Stages.IA S100000 := m ((c.tc : Thread nD τ).loc main_arg4)
abbrev aW1 (c : Dev nD) : Stages.FA S128x128 := m ((c.tc : Thread nD τ).loc main_arg5)
abbrev aB1 (c : Dev nD) : Stages.FA S128 := m ((c.tc : Thread nD τ).loc main_arg6)
abbrev aW2 (c : Dev nD) : Stages.FA S128x64 := m ((c.tc : Thread nD τ).loc main_arg7)
abbrev aB2 (c : Dev nD) : Stages.FA S64 := m ((c.tc : Thread nD τ).loc main_arg8)

/-- The edge sources and targets with the self-loops, and the edges' normalised weights. -/
abbrev src (c : Dev nD) : Stages.IA S1700000 := Stages.withLoops (aSrc m c)
abbrev dst (c : Dev nD) : Stages.IA S1700000 := Stages.withLoops (aDst m c)
abbrev nrm (c : Dev nD) : Stages.FA S1700000 := Stages.edgeNorm (src m c) (dst m c) (Stages.withOnes (aW m c))

/-- What every boundary from the first launch on still holds of the host's first stretch and of the arguments. -/
structure Kept (W : Valuation τ sig (Elt Ideal)) (c : Dev nD) : Prop where
  src : W (Proc.devRef .tc main_v1) = src m c
  dst : W (Proc.devRef .tc main_v2) = dst m c
  nrm : W (Proc.devRef .tc main_v27) = nrm m c
  state : W (Proc.devRef .tc main_arg4) = aState m c
  b1 : W (Proc.devRef .tc main_arg6) = aB1 m c
  w2 : W (Proc.devRef .tc main_arg7) = aW2 m c
  b2 : W (Proc.devRef .tc main_arg8) = aB2 m c

/-! ## Up to the first launch -/

/-- An argument array is as launched at the first launch's entry: no host operation before it writes one. -/
local macro "read_arg0" : tactic =>
  `(tactic| (simp only [W3, W2, W1, hostOps0, hostOps0_1, hostOps0_2]; after_results_simp))

theorem entry0_x (c : Dev nD) : W3 m ρ c (Proc.devRef .tc main_arg0) = aX m c := by read_arg0
theorem entry0_w1 (c : Dev nD) : W3 m ρ c (Proc.devRef .tc main_arg5) = aW1 m c := by read_arg0
theorem entry0_state (c : Dev nD) : W3 m ρ c (Proc.devRef .tc main_arg4) = aState m c := by read_arg0
theorem entry0_b1 (c : Dev nD) : W3 m ρ c (Proc.devRef .tc main_arg6) = aB1 m c := by read_arg0
theorem entry0_w2 (c : Dev nD) : W3 m ρ c (Proc.devRef .tc main_arg7) = aW2 m c := by read_arg0
theorem entry0_b2 (c : Dev nD) : W3 m ρ c (Proc.devRef .tc main_arg8) = aB2 m c := by read_arg0

/-! After the first host stretch: the edge lists with self-loops, the weights with the loops' ones, the degrees,
    where they are positive, and their inverse square roots. -/

theorem first_src (c : Dev nD) : W1 m ρ c (Proc.devRef .tc main_v1) = src m c := by
  simp only [W1, hostOps0]; after_results; rfl
theorem first_dst (c : Dev nD) : W1 m ρ c (Proc.devRef .tc main_v2) = dst m c := by
  simp only [W1, hostOps0]; after_results; rfl
theorem first_w (c : Dev nD) : W1 m ρ c (Proc.devRef .tc main_v4) = Stages.withOnes (aW m c) := by
  simp only [W1, hostOps0]; after_results; rfl

set_option maxHeartbeats 2000000 in
theorem first_pos (c : Dev nD) :
    W1 m ρ c (Proc.devRef .tc main_v9)
      = cmpf .ogt (Stages.degree (dst m c) (Stages.withOnes (aW m c))) (broadcastInDim S100000 ![] bcast_S_S100000 Stages.zero) := by
  simp only [W1, hostOps0]; after_results
  unfold Stages.degree Stages.asColumn Stages.withOnes
  rfl

set_option maxHeartbeats 2000000 in
theorem first_rsqrt (c : Dev nD) :
    W1 m ρ c (Proc.devRef .tc main_v10) = Host.rsqrt (Stages.degree (dst m c) (Stages.withOnes (aW m c))) := by
  simp only [W1, hostOps0]; after_results
  unfold Stages.degree Stages.asColumn Stages.withOnes
  rfl

theorem first_zero (c : Dev nD) : W1 m ρ c (Proc.devRef .tc main_cst_2) = Stages.zero := by
  simp only [W1, hostOps0]; after_results

/-! After the second stretch (the choice between the inverse square root and zero), over the first's results.
    That stretch is a called function's body: its operations move contents between a buffer's own type and the
    value's type, which are the same type for each of the buffers here, so the move is the identity. -/

theorem ofBuf_pos (h1 : (main_v9 : Ref sig .tc).ty = ⟨S100000, .i1⟩) (h2 h3) (w : IVec S100000 1) :
    (TRef.of main_v9 h1 h2 h3 : TRef sig ⟨S100000, .i1⟩).ofBuf (Val := Elt Ideal) w = w := rfl
theorem ofBuf_rsqrt (h1 : (main_v10 : Ref sig .tc).ty = ⟨S100000, .f32⟩) (h2 h3) (w : FVec Ideal S100000 .f32) :
    (TRef.of main_v10 h1 h2 h3 : TRef sig ⟨S100000, .f32⟩).ofBuf (Val := Elt Ideal) w = w := rfl
theorem ofBuf_zero (h1 : (main_cst_2 : Ref sig .tc).ty = ⟨S_, .f32⟩) (h2 h3) (w : FVec Ideal S_ .f32) :
    (TRef.of main_cst_2 h1 h2 h3 : TRef sig ⟨S_, .f32⟩).ofBuf (Val := Elt Ideal) w = w := rfl
theorem toBuf_inv (h1 : (main_v11 : Ref sig .tc).ty = ⟨S100000, .f32⟩) (h2 h3) (w : FVec Ideal S100000 .f32) :
    (TRef.of main_v11 h1 h2 h3 : TRef sig ⟨S100000, .f32⟩).toBuf (Val := Elt Ideal) w = w := rfl
theorem ofBuf_toBuf {T : BufTy} (x : TRef sig T) (v : T.Contents (Elt Ideal)) : x.ofBuf (x.toBuf v) = v := by
  simp [TRef.ofBuf, TRef.toBuf]

theorem mid_src (c : Dev nD) : W2 m ρ c (Proc.devRef .tc main_v1) = src m c := by
  have h := first_src m ρ c
  simp only [W2, hostOps0_1]
  generalize W1 m ρ c = W at h ⊢
  after_results
  exact h

theorem mid_dst (c : Dev nD) : W2 m ρ c (Proc.devRef .tc main_v2) = dst m c := by
  have h := first_dst m ρ c
  simp only [W2, hostOps0_1]
  generalize W1 m ρ c = W at h ⊢
  after_results
  exact h

theorem mid_w (c : Dev nD) : W2 m ρ c (Proc.devRef .tc main_v4) = Stages.withOnes (aW m c) := by
  have h := first_w m ρ c
  simp only [W2, hostOps0_1]
  generalize W1 m ρ c = W at h ⊢
  after_results
  exact h

theorem mid_inv (c : Dev nD) :
    W2 m ρ c (Proc.devRef .tc main_v11) = Stages.invSqrt (Stages.degree (dst m c) (Stages.withOnes (aW m c))) := by
  have h9 := first_pos m ρ c
  have h10 := first_rsqrt m ρ c
  have hz := first_zero m ρ c
  simp only [W2, hostOps0_1]
  generalize W1 m ρ c = W at h9 h10 hz ⊢
  after_results
  rw [h9, h10, hz]
  unfold Stages.invSqrt
  simp only [ofBuf_toBuf, ofBuf_pos, ofBuf_rsqrt, ofBuf_zero, toBuf_inv]

/-! After the third stretch (the normalised weights), over the second's results. -/

theorem kept3_src (c : Dev nD) : W3 m ρ c (Proc.devRef .tc main_v1) = src m c := by
  have h1 := mid_src m ρ c
  simp only [W3, hostOps0_2]
  generalize W2 m ρ c = W at h1 ⊢
  after_results_simp
  exact h1

theorem kept3_dst (c : Dev nD) : W3 m ρ c (Proc.devRef .tc main_v2) = dst m c := by
  have h2 := mid_dst m ρ c
  simp only [W3, hostOps0_2]
  generalize W2 m ρ c = W at h2 ⊢
  after_results_simp
  exact h2

set_option maxHeartbeats 2000000 in
theorem kept3_nrm (c : Dev nD) : W3 m ρ c (Proc.devRef .tc main_v27) = nrm m c := by
  have h1 := mid_src m ρ c
  have h2 := mid_dst m ρ c
  have h4 := mid_w m ρ c
  have h11 := mid_inv m ρ c
  simp only [W3, hostOps0_2]
  generalize W2 m ρ c = W at h1 h2 h4 h11 ⊢
  after_results_simp
  rw [h1, h2, h4, h11]
  show _ = Stages.edgeNorm _ _ _
  unfold Stages.edgeNorm Stages.asColumn Stages.wrapIndex
  rfl

theorem kept3 (c : Dev nD) : Kept m (W3 m ρ c) c :=
  ⟨kept3_src m ρ c, kept3_dst m ρ c, kept3_nrm m ρ c, entry0_state m ρ c, entry0_b1 m ρ c, entry0_w2 m ρ c, entry0_b2 m ρ c⟩

/-! ## The first launch: the dense product with the first weight matrix -/

theorem exit0_h (c : Dev nD) : W4 m ρ c (Proc.devRef .tc main_v28) = Stages.dense1 (aX m c) (aW1 m c) :=
  (W4_arr m ρ c 2).trans ((Region0.array (V3 m ρ) c).trans (congrArg₂ Stages.dense1 (entry0_x m ρ c) (entry0_w1 m ρ c)))

theorem kept4 (c : Dev nD) : Kept m (W4 m ρ c) c :=
  have k := kept3 m ρ c
  ⟨(W4_of_ne m ρ c main_v1 (by decide)).trans k.src, (W4_of_ne m ρ c main_v2 (by decide)).trans k.dst,
   (W4_of_ne m ρ c main_v27 (by decide)).trans k.nrm, (W4_of_ne m ρ c main_arg4 (by decide)).trans k.state,
   (W4_of_ne m ρ c main_arg6 (by decide)).trans k.b1, (W4_of_ne m ρ c main_arg7 (by decide)).trans k.w2,
   (W4_of_ne m ρ c main_arg8 (by decide)).trans k.b2⟩

/-! ## The host between the first and the second launch: propagation along the edges, and the bias as a row -/

set_option maxHeartbeats 2000000 in
theorem entry1_agg (c : Dev nD) :
    W5 m ρ c (Proc.devRef .tc main_v41)
      = Stages.propagate128 (Stages.dense1 (aX m c) (aW1 m c)) (src m c) (dst m c) (nrm m c) := by
  simp only [W5, hostOps1]
  after_results_simp
  rw [exit0_h m ρ c, (kept4 m ρ c).src, (kept4 m ρ c).dst, (kept4 m ρ c).nrm]
  unfold Stages.propagate128 Stages.asColumn Stages.wrapIndex
  rfl

/-- A vector reshaped to one row is the vector laid along the row. -/
theorem row128_eq (b : Stages.FA S128) (h : S128.ShapeCasts S1x128) : shapeCast S1x128 b h = Stages.asRow128 b := by
  funext i
  obtain ⟨u, q, rfl⟩ : ∃ (u : Fin 1) (q : Fin 128), i = ix2 u q := ⟨i 0, i 1, eq_ix2 i⟩
  rw [shapeCast_a_1a_apply]
  unfold Stages.asRow128
  refine (broadcastInDim_apply _ _ b (ix2 u q) (ix1 q) fun ax => ?_).symm
  match ax with
  | ⟨0, _⟩ => rfl

theorem row64_eq (b : Stages.FA S64) (h : S64.ShapeCasts S1x64) : shapeCast S1x64 b h = Stages.asRow64 b := by
  funext i
  obtain ⟨u, q, rfl⟩ : ∃ (u : Fin 1) (q : Fin 64), i = ix2 u q := ⟨i 0, i 1, eq_ix2 i⟩
  rw [shapeCast_a_1a_apply]
  unfold Stages.asRow64
  refine (broadcastInDim_apply _ _ b (ix2 u q) (ix1 q) fun ax => ?_).symm
  match ax with
  | ⟨0, _⟩ => rfl

set_option maxHeartbeats 2000000 in
theorem entry1_row (c : Dev nD) : W5 m ρ c (Proc.devRef .tc main_v42) = Stages.asRow128 (aB1 m c) := by
  simp only [W5, hostOps1]
  after_results_simp
  rw [(kept4 m ρ c).b1]
  exact row128_eq (aB1 m c) _

set_option maxHeartbeats 2000000 in
theorem kept5 (c : Dev nD) : Kept m (W5 m ρ c) c where
  src := by simp only [W5, hostOps1]; after_results_simp; exact (kept4 m ρ c).src
  dst := by simp only [W5, hostOps1]; after_results_simp; exact (kept4 m ρ c).dst
  nrm := by simp only [W5, hostOps1]; after_results_simp; exact (kept4 m ρ c).nrm
  state := by simp only [W5, hostOps1]; after_results_simp; exact (kept4 m ρ c).state
  b1 := by simp only [W5, hostOps1]; after_results_simp; exact (kept4 m ρ c).b1
  w2 := by simp only [W5, hostOps1]; after_results_simp; exact (kept4 m ρ c).w2
  b2 := by simp only [W5, hostOps1]; after_results_simp; exact (kept4 m ρ c).b2

/-! ## The second launch (bias, clamp) and the third (the product with the second weight matrix) -/

/-- The first layer's output. -/
abbrev hidden (c : Dev nD) : Stages.FA S100000x128 :=
  Stages.layer1 (aX m c) (aW1 m c) (aB1 m c) (src m c) (dst m c) (nrm m c)

theorem exit1_x (c : Dev nD) : W6 m ρ c (Proc.devRef .tc main_v43) = hidden m c :=
  (W6_arr m ρ c 2).trans ((Region1.array (V5 m ρ) c).trans (congrArg₂ Stages.addRowClamp (entry1_agg m ρ c) (entry1_row m ρ c)))

theorem kept6 (c : Dev nD) : Kept m (W6 m ρ c) c :=
  have k := kept5 m ρ c
  ⟨(W6_of_ne m ρ c main_v1 (by decide)).trans k.src, (W6_of_ne m ρ c main_v2 (by decide)).trans k.dst,
   (W6_of_ne m ρ c main_v27 (by decide)).trans k.nrm, (W6_of_ne m ρ c main_arg4 (by decide)).trans k.state,
   (W6_of_ne m ρ c main_arg6 (by decide)).trans k.b1, (W6_of_ne m ρ c main_arg7 (by decide)).trans k.w2,
   (W6_of_ne m ρ c main_arg8 (by decide)).trans k.b2⟩

theorem exit2_h (c : Dev nD) : W7 m ρ c (Proc.devRef .tc main_v44) = Stages.dense2 (hidden m c) (aW2 m c) :=
  (W7_arr m ρ c 2).trans ((Region2.array (V6 m ρ) c).trans (congrArg₂ Stages.dense2 (exit1_x m ρ c) (kept6 m ρ c).w2))

theorem kept7 (c : Dev nD) : Kept m (W7 m ρ c) c :=
  have k := kept6 m ρ c
  ⟨(W7_of_ne m ρ c main_v1 (by decide)).trans k.src, (W7_of_ne m ρ c main_v2 (by decide)).trans k.dst,
   (W7_of_ne m ρ c main_v27 (by decide)).trans k.nrm, (W7_of_ne m ρ c main_arg4 (by decide)).trans k.state,
   (W7_of_ne m ρ c main_arg6 (by decide)).trans k.b1,
   -- the second weight matrix is the third launch's right operand: an input window's array ends as it was entered
   (W7_arr m ρ c 1).trans (((dat2 (V6 m ρ) c).arrAt_in 1 rfl _).trans ((A_eq2 (V6 m ρ) c 1).trans k.w2)),
   (W7_of_ne m ρ c main_arg8 (by decide)).trans k.b2⟩

/-! ## The host between the third and the fourth launch: propagation again, and the second bias as a row -/

set_option maxHeartbeats 2000000 in
theorem entry3_agg (c : Dev nD) :
    W8 m ρ c (Proc.devRef .tc main_v57)
      = Stages.propagate64 (Stages.dense2 (hidden m c) (aW2 m c)) (src m c) (dst m c) (nrm m c) := by
  simp only [W8, hostOps3]
  after_results_simp
  rw [exit2_h m ρ c, (kept7 m ρ c).src, (kept7 m ρ c).dst, (kept7 m ρ c).nrm]
  unfold Stages.propagate64 Stages.asColumn Stages.wrapIndex
  rfl

set_option maxHeartbeats 2000000 in
theorem entry3_row (c : Dev nD) : W8 m ρ c (Proc.devRef .tc main_v58) = Stages.asRow64 (aB2 m c) := by
  simp only [W8, hostOps3]
  after_results_simp
  rw [(kept7 m ρ c).b2]
  exact row64_eq (aB2 m c) _

set_option maxHeartbeats 2000000 in
theorem entry3_state (c : Dev nD) : W8 m ρ c (Proc.devRef .tc main_arg4) = aState m c := by
  simp only [W8, hostOps3]; after_results_simp; exact (kept7 m ρ c).state

/-! ## The fourth launch (bias) and the per-state means -/

theorem exit3_x (c : Dev nD) :
    W9 m ρ c (Proc.devRef .tc main_v59)
      = Stages.layer2 (hidden m c) (aW2 m c) (aB2 m c) (src m c) (dst m c) (nrm m c) :=
  (W9_arr m ρ c 2).trans ((Region3.array (V8 m ρ) c).trans (congrArg₂ Stages.addRow (entry3_agg m ρ c) (entry3_row m ρ c)))

theorem exit3_state (c : Dev nD) : W9 m ρ c (Proc.devRef .tc main_arg4) = aState m c :=
  (W9_of_ne m ρ c main_arg4 (by decide)).trans (entry3_state m ρ c)

set_option maxHeartbeats 2000000 in
/-- THE RESULT: the last boundary's contents at the result array are the network of the argument arrays. -/
theorem result (c : Dev nD) :
    W10 m ρ c (Proc.devRef .tc main_v71)
      = Stages.network (aX m c) (aSrc m c) (aDst m c) (aW m c) (aState m c) (aW1 m c) (aB1 m c) (aW2 m c) (aB2 m c) := by
  simp only [W10, hostOps4]
  after_results_simp
  rw [exit3_x m ρ c, exit3_state m ρ c]
  unfold Stages.network Stages.poolMean
  rfl

end Cert.KernelIdeal.Whole

end
-- ==== Proof.RefValue.lean ====
/-
  The reference program's result is the network of `Stages`: its run's composed term of the argument arrays is,
  operation for operation, the stages' composition (the reference builds the edge lists and the normalised weights
  once per layer; both times they are the same functions of the same arguments).
-/
import proofs.«153502_j39642548142524_1_alg».proof.Proof.Gen.ReferenceIdeal.Run
import proofs.«153502_j39642548142524_1_alg».proof.Proof.Stages

set_option maxRecDepth 16384

noncomputable section

namespace Cert.ReferenceIdeal.RefValue

open Cert.ReferenceIdeal Cert.ReferenceIdeal.Gen Idealize.ShloMosaic Idealize.ShloMosaic.TcCoe Idealize.SL.Sem

/-- The reference run's result term, at the ideal values, is the network applied to the argument arrays. -/
theorem result_eq (m : (ℓ : Loc nD τ sig) → Buf (Elt Ideal) ℓ) (c : Dev nD) :
    Cert.ReferenceIdeal.Value.res_main_v102 (F := Ideal) m c
      = Stages.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v102 Stages.network Stages.poolMean Stages.layer2 Stages.layer1 Stages.addRow
    Stages.addRowClamp Stages.asRow64 Stages.asRow128 Stages.dense2 Stages.dense1 Stages.propagate64 Stages.propagate128
    Stages.edgeNorm Stages.invSqrt Stages.degree Stages.wrapIndex Stages.asColumn Stages.withOnes Stages.withLoops
  rfl

end Cert.ReferenceIdeal.RefValue

end
-- ==== Proof.lean ====
/-
  The certificate of a two-layer graph convolution with per-state mean pooling.

  The kernel program runs the two dense products and the two bias steps (the first clamped at zero) as four gridded
  kernels over row tiles and leaves the edge normalisation, the propagation along the edges and the pooling to the
  host; the reference does everything on the host.  On the extended reals both compute the one function
  `Stages.network` of the nine argument arrays: a tiled product into a zero accumulator is the product (a row of a
  product depends on that row of the left operand only, and the narrowing of the operands to a 16-bit format is the
  identity there), a tiled row-wise bias step is the bias step, and every host operation between is the same
  operation on both sides.  No law of arithmetic beyond the definitions joins the two sides, so the precondition
  (finite inputs) is not used.

  The three frames: the two kernel programs' are the generated frame certificates; the reference's is its generated
  run with the result dropped.  The idealization rewrote nothing, so it is preserved trivially.
-/
import proofs.«153502_j39642548142524_1_alg».proof.Defs
import proofs.«153502_j39642548142524_1_alg».proof.Proof.Gen.Kernel
import proofs.«153502_j39642548142524_1_alg».proof.Proof.Gen.Kernel.Frame
import proofs.«153502_j39642548142524_1_alg».proof.Proof.Gen.KernelIdeal
import proofs.«153502_j39642548142524_1_alg».proof.Proof.Gen.KernelIdeal.Frame
import proofs.«153502_j39642548142524_1_alg».proof.Proof.Gen.ReferenceIdeal
import proofs.«153502_j39642548142524_1_alg».proof.Proof.Gen.ReferenceIdeal.Run
import proofs.«153502_j39642548142524_1_alg».proof.Proof.Gen.Pre_finite_inputs
import proofs.«153502_j39642548142524_1_alg».proof.Proof.RunNamed
import proofs.«153502_j39642548142524_1_alg».proof.Proof.KernelWhole
import proofs.«153502_j39642548142524_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the argument arrays at their result: the kernel program by the
    walk through its segment boundaries, the reference by its run's composed term; the arguments agree. -/
theorem algebraic : Cert.algebraic_KernelIdeal_ReferenceIdeal := by
  intro m ρ m' ρ' _ hagree
  refine ⟨fun c => Cert.KernelIdeal.Gen.W10 m ρ c (Proc.devRef .tc Cert.KernelIdeal.main_v71),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.RefValue.result_eq, h0, h1, h2, h3, h4, h5, h6, h7, h8]
  exact (Cert.KernelIdeal.Whole.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
